-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1x1024 : Shape := ⟨3, ![4096, 1, 1024]⟩
abbrev S1x32000x1024 : Shape := ⟨3, ![1, 32000, 1024]⟩
abbrev S1x32000 : Shape := ⟨2, ![1, 32000]⟩
abbrev S_ : Shape := ⟨0, ![]⟩

class Facts : Prop where
  bcast_S_S4096x1x1024 : S_.BroadcastsInDim S4096x1x1024 (![] : Fin 0 → Fin S4096x1x1024.rank)
  reducesTo_S4096x1x1024_S_d0_1_2 : S4096x1x1024.ReducesTo [0, 1, 2] S_
  h_S_ : 0 < S_.numel
  bcast_S_S1x32000x1024 : S_.BroadcastsInDim S1x32000x1024 (![] : Fin 0 → Fin S1x32000x1024.rank)
  reducesTo_S1x32000x1024_S_d0_1_2 : S1x32000x1024.ReducesTo [0, 1, 2] S_
  bcast_S_S1x32000 : S_.BroadcastsInDim S1x32000 (![] : Fin 0 → Fin S1x32000.rank)
  reducesTo_S1x32000_S_d0_1 : S1x32000.ReducesTo [0, 1] S_

variable [Facts]

def fn {F : FTy → Type} [FloatOps F] (main_arg0 : FVec F S4096x1x1024 .f32) (main_arg1 : FVec F S1x32000x1024 .f32) (main_arg2 : FVec F S1x32000 .f32) : IVec S_ 1 :=
  let main_v0 : FVec F S4096x1x1024 .f32 := Host.absf main_arg0
  let main_cst : FVec F S_ .f32 := constant S_ .f32 0x7F800000#32
  let main_v1 : FVec F S4096x1x1024 .f32 := broadcastInDim S4096x1x1024 ![] bcast_S_S4096x1x1024 main_cst
  let main_v2 : IVec S4096x1x1024 1 := cmpf .olt main_v0 main_v1
  let main_c : IVec S_ 1 := constantI S_ 1 1#1
  let main_v3 : IVec S_ 1 := (fun x v => Host.reduce IntOp.andi x v reducesTo_S4096x1x1024_S_d0_1_2 h_S_) main_v2 main_c
  let main_v4 : FVec F S1x32000x1024 .f32 := Host.absf main_arg1
  let main_cst_0 : FVec F S_ .f32 := constant S_ .f32 0x7F800000#32
  let main_v5 : FVec F S1x32000x1024 .f32 := broadcastInDim S1x32000x1024 ![] bcast_S_S1x32000x1024 main_cst_0
  let main_v6 : IVec S1x32000x1024 1 := cmpf .olt main_v4 main_v5
  let main_c_1 : IVec S_ 1 := constantI S_ 1 1#1
  let main_v7 : IVec S_ 1 := (fun x v => Host.reduce IntOp.andi x v reducesTo_S1x32000x1024_S_d0_1_2 h_S_) main_v6 main_c_1
  let main_v8 : IVec S_ 1 := andi main_v3 main_v7
  let main_v9 : FVec F S1x32000 .f32 := Host.absf main_arg2
  let main_cst_2 : FVec F S_ .f32 := constant S_ .f32 0x7F800000#32
  let main_v10 : FVec F S1x32000 .f32 := broadcastInDim S1x32000 ![] bcast_S_S1x32000 main_cst_2
  let main_v11 : IVec S1x32000 1 := cmpf .olt main_v9 main_v10
  let main_c_3 : IVec S_ 1 := constantI S_ 1 1#1
  let main_v12 : IVec S_ 1 := (fun x v => Host.reduce IntOp.andi x v reducesTo_S1x32000_S_d0_1 h_S_) main_v11 main_c_3
  let main_v13 : IVec S_ 1 := andi main_v8 main_v12
  main_v13
-- ==== Kernel.lean ====
abbrev S4096x1x1024 : Shape := ⟨3, ![4096, 1, 1024]⟩
abbrev S1x32000x1024 : Shape := ⟨3, ![1, 32000, 1024]⟩
abbrev S1x32000 : Shape := ⟨2, ![1, 32000]⟩
abbrev S4096x1024 : Shape := ⟨2, ![4096, 1024]⟩
abbrev S32000x1024 : Shape := ⟨2, ![32000, 1024]⟩
abbrev S4096x32000 : Shape := ⟨2, ![4096, 32000]⟩
abbrev S512x1024 : Shape := ⟨2, ![512, 1024]⟩
abbrev S1280x1024 : Shape := ⟨2, ![1280, 1024]⟩
abbrev S1x1280 : Shape := ⟨2, ![1, 1280]⟩
abbrev S512x1280 : Shape := ⟨2, ![512, 1280]⟩

abbrev nBuf : Space → Nat
  | .hbm => 6
  | .vmem => 8
  | .smem => 0
  | _ => 0

abbrev bufTy : (tb : Table) → Fin (tcTables nBuf tb) → BufTy
  | .hbm, ⟨0, _⟩ => ⟨S4096x1x1024, .f32⟩
  | .hbm, ⟨1, _⟩ => ⟨S1x32000x1024, .f32⟩
  | .hbm, ⟨2, _⟩ => ⟨S1x32000, .f32⟩
  | .hbm, ⟨3, _⟩ => ⟨S4096x1024, .f32⟩
  | .hbm, ⟨4, _⟩ => ⟨S32000x1024, .f32⟩
  | .hbm, ⟨5, _⟩ => ⟨S4096x32000, .f32⟩
  | .local _ .vmem, ⟨0, _⟩ => ⟨S512x1024, .f32⟩
  | .local _ .vmem, ⟨1, _⟩ => ⟨S512x1024, .f32⟩
  | .local _ .vmem, ⟨2, _⟩ => ⟨S1280x1024, .f32⟩
  | .local _ .vmem, ⟨3, _⟩ => ⟨S1280x1024, .f32⟩
  | .local _ .vmem, ⟨4, _⟩ => ⟨S1x1280, .f32⟩
  | .local _ .vmem, ⟨5, _⟩ => ⟨S1x1280, .f32⟩
  | .local _ .vmem, ⟨6, _⟩ => ⟨S512x1280, .f32⟩
  | .local _ .vmem, ⟨7, _⟩ => ⟨S512x1280, .f32⟩
  | _, _ => ⟨S4096x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096x1x1024_S4096x1024 : S4096x1x1024.ShapeCasts S4096x1024
  shapeCasts_S1x32000x1024_S32000x1024 : S1x32000x1024.ShapeCasts S32000x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S1x1280_S1x1280_0_0 : ∀ a, (![0, 0] : Fin 2 → Nat) a + S1x1280.size a ≤ S1x1280.size a
  h_S1x1280 : 0 < S1x1280.numel
  broadcasts_S1x1280_S512x1280 : S1x1280.Broadcasts S512x1280
  inb_S512x1280_S512x1280_0_0 : ∀ a, (![0, 0] : Fin 2 → Nat) a + S512x1280.size a ≤ S512x1280.size a
  h_S512x1280 : 0 < S512x1280.numel
  dot_S512x1024_S1280x1024_S512x1280_1_1_0_0_n_n_wf : DotDims.WF S512x1024 S1280x1024 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1024.size a ≤ S32000x1024.size a
  hwx0_1 : ∀ i : grid0.Coords, EltTy.bits .f32 = 32 ∨ (Rect.block (s := S32000x1024) S1280x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x32000.size a
  hwx0_2 : ∀ i : grid0.Coords, EltTy.bits .f32 = 32 ∨ (Rect.block (s := S1x32000) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1280.size a ≤ S4096x32000.size a
  hwx0_3 : ∀ i : grid0.Coords, EltTy.bits .f32 = 32 ∨ (Rect.block (s := S4096x32000) S512x1280.size (cc0_transform_3 i) (hinb0_3 i)).WholeWords (EltTy.packing .f32)

variable [Facts₀]

def dot_S512x1024_S1280x1024_S512x1280_1_1_0_0_n_n : DotDims S512x1024 S1280x1024 S512x1280 where
  lhsContracting := [1]
  rhsContracting := [1]
  lhsNonContracting := [0]
  rhsNonContracting := [0]
  lhsBatch := []
  rhsBatch := []
  wf := dot_S512x1024_S1280x1024_S512x1280_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1280x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x1x1024 : Shape := ⟨3, ![4096, 1, 1024]⟩
abbrev S1x32000x1024 : Shape := ⟨3, ![1, 32000, 1024]⟩
abbrev S1x32000 : Shape := ⟨2, ![1, 32000]⟩
abbrev S4096x1024 : Shape := ⟨2, ![4096, 1024]⟩
abbrev S32000x1024 : Shape := ⟨2, ![32000, 1024]⟩
abbrev S4096x32000 : Shape := ⟨2, ![4096, 32000]⟩

abbrev nBuf : Space → Nat
  | .hbm => 8
  | .vmem => 0
  | .smem => 0
  | _ => 0

abbrev bufTy : (tb : Table) → Fin (tcTables nBuf tb) → BufTy
  | .hbm, ⟨0, _⟩ => ⟨S4096x1x1024, .f32⟩
  | .hbm, ⟨1, _⟩ => ⟨S1x32000x1024, .f32⟩
  | .hbm, ⟨2, _⟩ => ⟨S1x32000, .f32⟩
  | .hbm, ⟨3, _⟩ => ⟨S4096x1024, .f32⟩
  | .hbm, ⟨4, _⟩ => ⟨S32000x1024, .f32⟩
  | .hbm, ⟨5, _⟩ => ⟨S4096x32000, .f32⟩
  | .hbm, ⟨6, _⟩ => ⟨S4096x32000, .f32⟩
  | .hbm, ⟨7, _⟩ => ⟨S4096x32000, .f32⟩
  | _, _ => ⟨S4096x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  shapeCasts_S4096x1x1024_S4096x1024 : S4096x1x1024.ShapeCasts S4096x1024
  shapeCasts_S1x32000x1024_S32000x1024 : S1x32000x1024.ShapeCasts S32000x1024
  bcast_S1x32000_S4096x32000_0_1 : S1x32000.BroadcastsInDim S4096x32000 (![0, 1] : Fin 2 → Fin S4096x32000.rank)
  dot_S4096x1024_S32000x1024_S4096x32000_1_1_0_0_n_n_wf : DotDims.WF S4096x1024 S32000x1024 S4096x32000 [1] [1] [0] [0] [] []

variable [Facts₀]

def dot_S4096x1024_S32000x1024_S4096x32000_1_1_0_0_n_n : DotDims S4096x1024 S32000x1024 S4096x32000 where
  lhsContracting := [1]
  rhsContracting := [1]
  lhsNonContracting := [0]
  rhsNonContracting := [0]
  lhsBatch := []
  rhsBatch := []
  wf := dot_S4096x1024_S32000x1024_S4096x32000_1_1_0_0_n_n_wf

class Facts : Prop extends Facts₀ where

variable [Facts]
-- ==== Proof.Logits.lean ====
/-
  The function both programs compute, over the extended reals. With the activations read as a [4096, 1024] matrix `a`,
  the weights as a [32000, 1024] matrix `w` and the bias as a [1, 32000] row `b`, entry (r, q) of the result is the dot
  product of row r of `a` with row q of `w`, plus `b` at column q:

      out[r, q] = (∑ k < 1024, a[r, k] · w[q, k]) + b[0, q].

  Both sides contract the same axis in the same index order and add the bias on the same side, so no law of the
  extended reals beyond reading each operation at an index is needed, and finiteness of the inputs is never used.
-/
import Idealize.ShloMosaic.Lib.ValueIdx

noncomputable section

open scoped BigOperators
open Idealize.ShloMosaic Idealize.ShloMosaic.ValueIdx

namespace Cert.Logits

/-- Entry (r, q): row r of the activations against row q of the weights, plus the bias of column q. -/
def entry (a : (⟨2, ![4096, 1024]⟩ : Shape).Idx → EReal) (w : (⟨2, ![32000, 1024]⟩ : Shape).Idx → EReal)
    (b : (⟨2, ![1, 32000]⟩ : Shape).Idx → EReal) (r : Fin 4096) (q : Fin 32000) : EReal :=
  (∑ k : Fin 1024, a (ix2 r k) * w (ix2 q k)) + b (ix2 (0 : Fin 1) q)

/-- The whole [4096, 32000] result, index by index. -/
def logits (a : (⟨2, ![4096, 1024]⟩ : Shape).Idx → EReal) (w : (⟨2, ![32000, 1024]⟩ : Shape).Idx → EReal)
    (b : (⟨2, ![1, 32000]⟩ : Shape).Idx → EReal) : (⟨2, ![4096, 32000]⟩ : Shape).Idx → EReal :=
  fun i => entry a w b (i 0) (i 1)

theorem logits_apply (a : (⟨2, ![4096, 1024]⟩ : Shape).Idx → EReal) (w : (⟨2, ![32000, 1024]⟩ : Shape).Idx → EReal)
    (b : (⟨2, ![1, 32000]⟩ : Shape).Idx → EReal) (i : (⟨2, ![4096, 32000]⟩ : Shape).Idx) :
    logits a w b i = (∑ k : Fin 1024, a (ix2 (i 0) k) * w (ix2 (i 1) k)) + b (ix2 (0 : Fin 1) (i 1)) := rfl

end Cert.Logits

end
-- ==== Proof.RefLogits.lean ====
/-
  The reference's result, read at an index, is `Cert.Logits.logits` of its two reshaped operands and the bias:
  the host's `dot_general` contracts axis 1 of both operands, so its element (r, q) is the sum over k of the left
  operand at (r, k) times the right at (q, k); the `broadcast_in_dim` of the [1, 32000] bias reads column q of its
  one row; the final `add` adds the two.
-/
import proofs.«114898_j61117384622669_1_alg».proof.Proof.Gen.ReferenceIdeal.Read
import proofs.«114898_j61117384622669_1_alg».proof.Proof.Logits

noncomputable section

open scoped BigOperators
open Idealize.ShloMosaic Idealize.ShloMosaic.ValueIdx

namespace Cert.ReferenceIdeal.RefValue

open Cert.ReferenceIdeal Cert.ReferenceIdeal.Gen Cert.ReferenceIdeal.Read

/-- The left operand's index at output (r, q) and contraction coordinate k is (r, k). -/
theorem left_index (i : S4096x32000.Idx) (k : Fin 1024) : lidx_main_v2 i k = ix2 (i 0) k :=
  funext fun a => Fin.ext (by match a with | ⟨0, _⟩ => rfl | ⟨1, _⟩ => rfl)

/-- The right operand's index there is (q, k). -/
theorem right_index (i : S4096x32000.Idx) (k : Fin 1024) : ridx_main_v2 i k = ix2 (i 1) k :=
  funext fun a => Fin.ext (by match a with | ⟨0, _⟩ => rfl | ⟨1, _⟩ => rfl)

/-- The broadcast bias at output (r, q) reads (0, q). -/
theorem bias_index (i : S4096x32000.Idx) : idx_main_v3 i = ix2 (0 : Fin 1) (i 1) :=
  funext fun a => Fin.ext (by match a with | ⟨0, _⟩ => rfl | ⟨1, _⟩ => rfl)

/-- The reference's last stage is `logits` of the reshaped activations, the reshaped weights and the bias. -/
theorem result_eq (x0 : (⟨S4096x1x1024, .f32⟩ : BufTy).Contents (Elt Ideal)) (x1 : (⟨S1x32000x1024, .f32⟩ : BufTy).Contents (Elt Ideal))
    (x2 : (⟨S1x32000, .f32⟩ : BufTy).Contents (Elt Ideal)) :
    val_main_v4 (F := Ideal) x0 x1 x2
      = Cert.Logits.logits (val_main_v0 (F := Ideal) x0) (val_main_v1 (F := Ideal) x1) x2 := by
  funext i
  rw [val_main_v4_apply, val_main_v2_apply, val_main_v3_apply, Cert.Logits.logits_apply]
  simp only [left_index, right_index, bias_index]
  rfl

end Cert.ReferenceIdeal.RefValue

end
-- ==== Proof.KernelPoint.lean ====
/-
  One grid point of the kernel, read at an index of its [512, 1280] output block. The body multiplies the point's
  [512, 1024] block of activations by its [1280, 1024] block of weights, contracting axis 1 of both into a zero
  accumulator, and adds the point's [1, 1280] block of the bias, broadcast down the rows. At the extended reals the two
  narrowings to bf16 are the identity and the same-shape casts change nothing, so entry (p, q) of the stored value is

      (∑ k < 1024, x[p, k] · w[q, k]) + b[0, q].
-/
import proofs.«114898_j61117384622669_1_alg».proof.Proof.Gen.KernelIdeal.Skeleton
import proofs.«114898_j61117384622669_1_alg».proof.Proof.Logits
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Point

open Cert.KernelIdeal Cert.KernelIdeal.Gen

/-! ## The operand indices of the block product -/

/-- Axis 0 of the left operand is the output's row. -/
theorem lhs_axis0 (i : S512x1280.Idx) (q : dot_S512x1024_S1280x1024_S512x1280_1_1_0_0_n_n.contr.Idx) :
    (dot_S512x1024_S1280x1024_S512x1280_1_1_0_0_n_n.lhsIdx i q 0).val = (i 0).val := by
  unfold DotDims.lhsIdx
  rw [dif_neg (show ¬(0 : Fin S512x1024.rank) ∈ dot_S512x1024_S1280x1024_S512x1280_1_1_0_0_n_n.lhsBatch by decide), dif_pos (show (0 : Fin S512x1024.rank) ∈ dot_S512x1024_S1280x1024_S512x1280_1_1_0_0_n_n.lhsNonContracting by decide)]
  rfl
/-- Axis 1 of the left operand is the contraction coordinate. -/
theorem lhs_axis1 (i : S512x1280.Idx) (q : dot_S512x1024_S1280x1024_S512x1280_1_1_0_0_n_n.contr.Idx) :
    (dot_S512x1024_S1280x1024_S512x1280_1_1_0_0_n_n.lhsIdx i q 1).val = (q ⟨0, by decide⟩).val :=
  dot_S512x1024_S1280x1024_S512x1280_1_1_0_0_n_n.lhsIdx_val_of_single rfl i q
/-- Axis 0 of the right operand is the output's column. -/
theorem rhs_axis0 (i : S512x1280.Idx) (q : dot_S512x1024_S1280x1024_S512x1280_1_1_0_0_n_n.contr.Idx) :
    (dot_S512x1024_S1280x1024_S512x1280_1_1_0_0_n_n.rhsIdx i q 0).val = (i 1).val := by
  unfold DotDims.rhsIdx
  rw [dif_neg (show ¬(0 : Fin S1280x1024.rank) ∈ dot_S512x1024_S1280x1024_S512x1280_1_1_0_0_n_n.rhsBatch by decide), dif_pos (show (0 : Fin S1280x1024.rank) ∈ dot_S512x1024_S1280x1024_S512x1280_1_1_0_0_n_n.rhsNonContracting by decide)]
  rfl
/-- Axis 1 of the right operand is the contraction coordinate. -/
theorem rhs_axis1 (i : S512x1280.Idx) (q : dot_S512x1024_S1280x1024_S512x1280_1_1_0_0_n_n.contr.Idx) :
    (dot_S512x1024_S1280x1024_S512x1280_1_1_0_0_n_n.rhsIdx i q 1).val = (q ⟨0, by decide⟩).val :=
  dot_S512x1024_S1280x1024_S512x1280_1_1_0_0_n_n.rhsIdx_val_of_single rfl i q

/-! ## The three pieces of the payload at an index -/

/-- The block product into the zero accumulator, at (p, q): row p of the left block against row q of the right. -/
theorem block_product (y0 : FVec Ideal S512x1024 .bf16) (y1 : FVec Ideal S1280x1024 .bf16) (j : S512x1280.Idx) :
    matmul dot_S512x1024_S1280x1024_S512x1280_1_1_0_0_n_n none y0 y1 (constant (F := Ideal) S512x1280 .f32 0x00000000#32) j
      = ∑ k : Fin 1024, y0 (ix2 (j 0) k) * y1 (ix2 (j 1) k) := by
  simp only [matmul]
  rw [Ideal.matmul_constant_zero_apply, ← Equiv.sum_comp (ValueIdx.contrEquiv1 dot_S512x1024_S1280x1024_S512x1280_1_1_0_0_n_n 1024 rfl rfl).symm]
  refine Finset.sum_congr rfl fun k _ => ?_
  have hk := ValueIdx.contrEquiv1_symm_val dot_S512x1024_S1280x1024_S512x1280_1_1_0_0_n_n 1024 rfl rfl k
  have el : dot_S512x1024_S1280x1024_S512x1280_1_1_0_0_n_n.lhsIdx j ((ValueIdx.contrEquiv1 dot_S512x1024_S1280x1024_S512x1280_1_1_0_0_n_n 1024 rfl rfl).symm k) = ix2 (j 0) k := funext fun a => Fin.ext (by
    match a with
    | ⟨0, _⟩ => exact lhs_axis0 _ _
    | ⟨1, _⟩ => exact (lhs_axis1 _ _).trans hk)
  have er : dot_S512x1024_S1280x1024_S512x1280_1_1_0_0_n_n.rhsIdx j ((ValueIdx.contrEquiv1 dot_S512x1024_S1280x1024_S512x1280_1_1_0_0_n_n 1024 rfl rfl).symm k) = ix2 (j 1) k := funext fun a => Fin.ext (by
    match a with
    | ⟨0, _⟩ => exact rhs_axis0 _ _
    | ⟨1, _⟩ => exact (rhs_axis1 _ _).trans hk)
  rw [el, er]
  rfl

/-- The bias block broadcast down the rows, at (p, q): its one row at column q. -/
theorem bias_row (x2 : Vec Ideal S1x1280 .f32) (j : S512x1280.Idx) :
    broadcastTo S512x1280 x2 broadcasts_S1x1280_S512x1280 j = x2 (ix2 (0 : Fin 1) (j 1)) :=
  broadcastTo_apply x2 broadcasts_S1x1280_S512x1280 j (ix2 (0 : Fin 1) (j 1)) (fun a => match a with
    | ⟨0, _⟩ => by show 0 = if (1 : Nat) = 1 then 0 else (j 0).val; rw [if_pos rfl]
    | ⟨1, _⟩ => by show (j 1).val = if (1280 : Nat) = 1 then 0 else (j 1).val; rw [if_neg (by decide)])

/-- What the body stores, at (p, q), from the three blocks it loads. -/
theorem payload_apply (x0 : Vec Ideal S512x1024 .f32) (x1 : Vec Ideal S1280x1024 .f32) (x2 : Vec Ideal S1x1280 .f32)
    (j : S512x1280.Idx) :
    k0_pay1 (F := Ideal) x0 x1 x2 j
      = (∑ k : Fin 1024, x0 (ix2 (j 0) k) * x1 (ix2 (j 1) k)) + x2 (ix2 (0 : Fin 1) (j 1)) := by
  unfold k0_pay1
  show matmul dot_S512x1024_S1280x1024_S512x1280_1_1_0_0_n_n none (truncf .bf16 (shapeCast S512x1024 x0 shapeCasts_S512x1024_S512x1024) bitsLt_bf16_f32)
        (truncf .bf16 (shapeCast S1280x1024 x1 shapeCasts_S1280x1024_S1280x1024) bitsLt_bf16_f32)
        (constant (F := Ideal) S512x1280 .f32 0x00000000#32) j
      + broadcastTo S512x1280 x2 broadcasts_S1x1280_S512x1280 j = _
  rw [block_product, bias_row, shapeCast_self, shapeCast_self]
  rfl

/-- One point against the whole result: if row p of the activation block is row r of the activations, row q of the weight
    block is row s of the weights, and column q of the bias block is column s of the bias, then entry (p, q) of what the
    point stores is entry (r, s) of `logits`. -/
theorem point_eq (x0 : Vec Ideal S512x1024 .f32) (x1 : Vec Ideal S1280x1024 .f32) (x2 : Vec Ideal S1x1280 .f32)
    (a : S4096x1024.Idx → EReal) (w : S32000x1024.Idx → EReal) (b : S1x32000.Idx → EReal)
    (y : S512x1280.Idx) (i : S4096x32000.Idx)
    (h0 : ∀ k : Fin 1024, x0 (ix2 (y 0) k) = a (ix2 (i 0) k))
    (h1 : ∀ k : Fin 1024, x1 (ix2 (y 1) k) = w (ix2 (i 1) k))
    (h2 : x2 (ix2 (0 : Fin 1) (y 1)) = b (ix2 (0 : Fin 1) (i 1))) :
    k0_pay1 (F := Ideal) x0 x1 x2 y = Cert.Logits.logits a w b i := by
  rw [payload_apply, Cert.Logits.logits_apply, h2]
  exact congrArg (· + b (ix2 (0 : Fin 1) (i 1))) (Finset.sum_congr rfl fun k _ => by rw [h0 k, h1 k])

end Cert.KernelIdeal.Point

end
-- ==== Proof.KernelArray.lean ====
/-
  From the grid's blocks to the whole result array. The grid is 8 × 25: point (s, u) reads rows 512 s … 512 s + 511 of
  the activations, rows 1280 u … 1280 u + 1279 of the weights and columns 1280 u … of the bias, and writes back block
  (s, u) of the [4096, 32000] result. A block's coordinate is always (block index) × (block size) + (coordinate inside
  the block), so entry (p, q) of what point (s, u) writes is entry (512 s + p, 1280 u + q) of `Cert.Logits.logits` of
  the arrays as the region finds them; the 200 blocks tile the array (row r lies in block row r / 512, column q in block
  column q / 1280), so the array ends holding `logits`. The activations and weights the region finds are the host's
  reshapes of the arguments; the bias is the argument itself.
-/
import proofs.«114898_j61117384622669_1_alg».proof.Proof.Gen.KernelIdeal.Value
import proofs.«114898_j61117384622669_1_alg».proof.Proof.KernelPoint
import proofs.«114898_j61117384622669_1_alg».proof.Proof.Logits
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

theorem zero_offsets : (![0, 0] : Fin 2 → Nat) = fun _ => 0 := funext fun a => by fin_cases a <;> rfl

/-- The result as a function of the arrays the region finds: `logits` of the reshaped activations, the reshaped
    weights and the bias. -/
abbrev found (c : Dev nD) : S4096x32000.Idx → EReal :=
  Cert.Logits.logits (V m c main_v0) (V m c main_v1) (V m c main_arg2)

/-- The printed index maps over the 200 points: the activations' block row is the output's, the weights' block row
    and the bias's block column are the output's block column, and every other block index is 0. -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2) :=
  (by decide +kernel : ∀ t : Fin grid0.N, _)

/-- Every block (s, u) of the 8 × 25 tiling is some point's. -/
theorem block_onto : ∀ (s : Fin 8) (u : Fin 25), ∃ t : Fin cfg0.N, win0_3.index t = ![s.val, u.val] :=
  (by decide +kernel : ∀ (s : Fin 8) (u : Fin 25), ∃ t : Fin grid0.N, win0_3.index t = ![s.val, u.val])

/-- What point `t` writes back is block `t` of `found`. -/
theorem flushed_eq (c : Dev nD) (t : Fin cfg0.N) :
    (dats m 0 c).flushed 3 t = ((cfg0.win 3).blk t).view.read (Elt Ideal) (found m c) := by
  rw [flushed3]
  unfold out0_3
  rw [View.canon_unit_zero zero_offsets]
  simp only [View.ld_unit_zero (S := S512x1024) zero_offsets, View.ld_unit_zero (S := S1280x1024) zero_offsets,
    View.ld_unit_zero (S := S1x1280) zero_offsets]
  obtain ⟨e0, e1, e2, e3, e4, e5⟩ := block_indices t
  refine funext fun (j : S512x1280.Idx) => ?_
  have hj0 : (j 0).val < 512 := (j 0).isLt
  have hj1 : (j 1).val < 1280 := (j 1).isLt
  show k0_pay1 (F := Ideal) (iblk m c 0 t) (iblk m c 1 t) (iblk m c 2 t) j
    = Cert.Logits.logits (V m c main_v0) (V m c main_v1) (V m c main_arg2) (((cfg0.win 3).blk t).view.emb j)
  refine Cert.KernelIdeal.Point.point_eq (iblk m c 0 t) (iblk m c 1 t) (iblk m c 2 t) (V m c main_v0) (V m c main_v1)
    (V m c main_arg2) j (((cfg0.win 3).blk t).view.emb j) (fun k => ?_) (fun k => ?_) ?_
  · -- row p of the activation block is row 512 s + p of the activations
    have hk : k.val < 1024 := k.isLt
    show V m c main_v0 (((cfg0.win 0).blk t).view.emb (ix2 (j 0) k))
      = V m c main_v0 (ix2 ((((cfg0.win 3).blk t).view.emb j) 0) k)
    refine congrArg (V m c main_v0) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * k.val = k.val; omega
  · -- row q of the weight block is row 1280 u + q of the weights
    have hk : k.val < 1024 := k.isLt
    show V m c main_v1 (((cfg0.win 1).blk t).view.emb (ix2 (j 1) k))
      = V m c main_v1 (ix2 ((((cfg0.win 3).blk t).view.emb j) 1) k)
    refine congrArg (V m c main_v1) (funext fun a => Fin.ext ?_)
    match a with
    | ⟨0, _⟩ => show win0_1.index t (0 : Fin 2) * 1280 + 1 * (j 1).val = win0_3.index t (1 : Fin 2) * 1280 + 1 * (j 1).val; omega
    | ⟨1, _⟩ => show win0_1.index t (1 : Fin 2) * 1024 + 1 * k.val = k.val; omega
  · -- column q of the bias block is column 1280 u + q of the bias
    show V m c main_arg2 (((cfg0.win 2).blk t).view.emb (ix2 (0 : Fin 1) (j 1)))
      = V m c main_arg2 (ix2 (0 : Fin 1) ((((cfg0.win 3).blk t).view.emb j) 1))
    refine congrArg (V m c main_arg2) (funext fun a => Fin.ext ?_)
    match a with
    | ⟨0, _⟩ => show win0_2.index t (0 : Fin 2) * 1 + 1 * 0 = 0; omega
    | ⟨1, _⟩ => show win0_2.index t (1 : Fin 2) * 1280 + 1 * (j 1).val = win0_3.index t (1 : Fin 2) * 1280 + 1 * (j 1).val; omega

/-- An index of the result array is in point `t`'s block iff each coordinate is in the block's range on its axis. -/
theorem mem_block (t : Fin cfg0.N) (i : S4096x32000.Idx) :
    i ∈ ((cfg0.win 3).blk t).view.set ↔ ∀ a : Fin 2, win0_3.index t a * S512x1280.size a ≤ (i a).val
      ∧ (i a).val < win0_3.index t a * S512x1280.size a + S512x1280.size a := by
  show i ∈ ((View.whole main_v2).slice (win0_3.rect t)).set ↔ _
  rw [View.set_slice_whole, Rect.mem_set_unit]
  exact Iff.rfl

/-- The blocks tile the array: index (r, q) lies in the block of the point at block row r / 512, block column q / 1280. -/
theorem tiled (i : S4096x32000.Idx) :
    ∃ t : Fin cfg0.N, (cfg0.win 3).flush t = true ∧ i ∈ ((cfg0.win 3).blk t).view.set := by
  have hi0 : (i 0).val < 4096 := (i 0).isLt
  have hi1 : (i 1).val < 32000 := (i 1).isLt
  obtain ⟨t, ht⟩ := block_onto ⟨(i 0).val / 512, by omega⟩ ⟨(i 1).val / 1280, by omega⟩
  have q0 : win0_3.index t (0 : Fin 2) = (i 0).val / 512 := congrFun ht 0
  have q1 : win0_3.index t (1 : Fin 2) = (i 1).val / 1280 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1280 ≤ (i 1).val ∧ (i 1).val < win0_3.index t (1 : Fin 2) * 1280 + 1280; omega

/-- So the result array ends holding `found`. -/
theorem final (c : Dev nD) : (dats m 0 c).arrAt 3 cfg0.N = found m c :=
  (dats m 0 c).arrAt_eq_of_cover 3 (found m c) (fun t _ => flushed_eq m c t) tiled

/-- The activations the region finds are the host's reshape of the first argument. -/
theorem found_acts (c : Dev nD) : (V m c main_v0 : S4096x1024.Idx → EReal)
    = shapeCast S4096x1024 (m ((c : Thread nD τ).loc main_arg0)) shapeCasts_S4096x1x1024_S4096x1024 := by
  dsimp only [Gen.V, Gen.hostOps0]; after_results; rfl

/-- The weights the region finds are the host's reshape of the second argument. -/
theorem found_weights (c : Dev nD) : (V m c main_v1 : S32000x1024.Idx → EReal)
    = shapeCast S32000x1024 (m ((c : Thread nD τ).loc main_arg1)) shapeCasts_S1x32000x1024_S32000x1024 := by
  dsimp only [Gen.V, Gen.hostOps0]; after_results; rfl

/-- The result as a function of the arguments. -/
abbrev value (c : Dev nD) : S4096x32000.Idx → EReal :=
  Cert.Logits.logits (shapeCast S4096x1024 (m ((c : Thread nD τ).loc main_arg0)) shapeCasts_S4096x1x1024_S4096x1024)
    (shapeCast S32000x1024 (m ((c : Thread nD τ).loc main_arg1)) shapeCasts_S1x32000x1024_S32000x1024)
    (m ((c : Thread nD τ).loc main_arg2))

theorem found_eq_value (c : Dev nD) : found m c = value m c := by
  unfold found value
  rw [found_acts, found_weights, V_main_arg2]

/-- The run, read: the result array at `value`, the arguments unchanged. -/
theorem run : θ_run defs (onTc (τ := τ) (main (F := Ideal))) ⟨m, fun _ => 0, ρ⟩ fun r => ∀ c : Dev nD,
      r.2.mem ((c : Thread nD τ).loc main_v2) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (found_eq_value m c)), (h c).2⟩)
    (run_blocks m ρ)

end Cert.KernelIdeal.Whole

end
-- ==== Proof.lean ====
/-
  A dense layer: out = x · matᵀ + bias, with x : [4096, 1, 1024], mat : [1, 32000, 1024], bias : [1, 32000].

  The kernel reshapes x and mat to matrices on the host and runs ONE pallas_call over an 8 × 25 grid; point (s, u)
  multiplies a [512, 1024] block of activations by a [1280, 1024] block of weights (both narrowed to bf16, which is the
  identity on the extended reals), contracting axis 1 of both into a zero accumulator, adds a [1, 1280] block of the bias
  broadcast down the rows, and stores the [512, 1280] block (s, u) of the result. The reference reshapes the same way,
  takes one `dot_general` contracting axis 1 of both operands, and adds the bias broadcast down the rows.

  At the extended reals both are, entry by entry,

      out[r, q] = (∑ k < 1024, x[r, 0, k] · mat[0, q, k]) + bias[0, q]

  with the sum over the same index set in both programs and the bias added on the same side: the two results are one
  function (`Cert.Logits.logits`) of the same reshaped operands, so the bridge uses no algebraic law of the extended
  reals and never opens the finiteness precondition. The kernel's side: one point's stored value at an index
  (Proof/KernelPoint.lean), then the 200 blocks tile the array (Proof/KernelArray.lean). The reference's side: its last
  stage read at an index (Proof/RefLogits.lean). The ideal pass rewrote nothing, so `preserves` is `True`.
-/
import proofs.«114898_j61117384622669_1_alg».proof.Defs
import proofs.«114898_j61117384622669_1_alg».proof.Proof.Gen.Kernel
import proofs.«114898_j61117384622669_1_alg».proof.Proof.Gen.Kernel.Skeleton
import proofs.«114898_j61117384622669_1_alg».proof.Proof.Gen.Kernel.Launch
import proofs.«114898_j61117384622669_1_alg».proof.Proof.Gen.Kernel.Points
import proofs.«114898_j61117384622669_1_alg».proof.Proof.Gen.Kernel.Frame
import proofs.«114898_j61117384622669_1_alg».proof.Proof.Gen.KernelIdeal
import proofs.«114898_j61117384622669_1_alg».proof.Proof.Gen.KernelIdeal.Skeleton
import proofs.«114898_j61117384622669_1_alg».proof.Proof.Gen.KernelIdeal.Launch
import proofs.«114898_j61117384622669_1_alg».proof.Proof.Gen.KernelIdeal.Points
import proofs.«114898_j61117384622669_1_alg».proof.Proof.Gen.KernelIdeal.Frame
import proofs.«114898_j61117384622669_1_alg».proof.Proof.Gen.ReferenceIdeal
import proofs.«114898_j61117384622669_1_alg».proof.Proof.Gen.Pre_finite_inputs
import proofs.«114898_j61117384622669_1_alg».proof.Proof.Gen.KernelIdeal.Value
import proofs.«114898_j61117384622669_1_alg».proof.Proof.Gen.ReferenceIdeal.Run
import proofs.«114898_j61117384622669_1_alg».proof.Proof.Gen.ReferenceIdeal.Read
import proofs.«114898_j61117384622669_1_alg».proof.Proof.Logits
import proofs.«114898_j61117384622669_1_alg».proof.Proof.RefLogits
import proofs.«114898_j61117384622669_1_alg».proof.Proof.KernelPoint
import proofs.«114898_j61117384622669_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with `logits` of the reshaped activations, the reshaped weights and the bias: the kernel's array
    block by block, the reference's last stage index by index; the arguments agree, so the two are one term. -/
theorem algebraic : Cert.algebraic_KernelIdeal_ReferenceIdeal := by
  intro m ρ m' ρ' _ hagree
  refine ⟨fun c => Cert.KernelIdeal.Whole.value m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
